-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128x128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128x128 .f32) (main_arg5 : FVec F S128 .f32) (main_arg6 : FVec F S128x128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S5000x128 : Shape := ⟨2, ![5000, 128]⟩
abbrev S5000x256 : Shape := ⟨2, ![5000, 256]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 60
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x256, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x1, .f32⟩
  | .hbm, ⟨27, _⟩ => ⟨S1600000x128, .f32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S128x256, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S1600000x1, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x256, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  concatenates_S128x128_S128x128_S128x256_d1 : Shape.Concatenates [S128x128, S128x128] S128x256 1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  slices_S5000x256_o0_0_S5000x128 : S5000x256.Slices ![0, 0] S5000x128
  slices_S5000x256_o0_128_S5000x128 : S5000x256.Slices ![0, 128] S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  dot_S5000x128_S128x256_S5000x256_1_0_0_1_n_n_wf : DotDims.WF S5000x128 S128x256 S5000x256 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v23_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v41) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_arg0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v42) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x1600000, .i32⟩
  | .hbm, ⟨37, _⟩ => ⟨S1600000, .i32⟩
  | .hbm, ⟨38, _⟩ => ⟨S1x1600000, .i32⟩
  | .hbm, ⟨39, _⟩ => ⟨S1600000, .i32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The mathematics of one graph-convolution layer at the extended reals, over the literal shapes of this kernel.

  A layer is  h ↦ AGG(h · W) + h · Wloop + b  on a [100000, 128] array of node features, where AGG gathers rows of the
  support  h · W  along the edges, scales them by the edge weights and sums them into the destination rows. The kernel
  multiplies  h  ONCE by the [128, 256] matrix  [W | Wloop]  and reads the support from columns 0..127 and the self-loop term
  from columns 128..255 of the product; the reference multiplies twice. Entry (r, q) of the product with the
  concatenated matrix is  ∑ k, h[r, k] · [W | Wloop][k, q],  and column q < 128 of the concatenation is column q of W, column
  128 + q is column q of Wloop: so the two readings are the two separate products, term by term, with no law of the
  extended reals used at all. The bias joins as  AGG + (h · Wloop + b)  in the kernel and as  (AGG + h · Wloop) + b  in the
  reference: associativity of + (which holds on the extended reals, infinities included).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.GraphConv

open Idealize.ShloMosaic Idealize.ShloMosaic.ValueIdx

/-- Node features [100000, 128]. -/
abbrev SN : Shape := ⟨2, ![100000, 128]⟩
/-- One weight matrix [128, 128]. -/
abbrev SW : Shape := ⟨2, ![128, 128]⟩
/-- The two weight matrices side by side [128, 256]. -/
abbrev SWW : Shape := ⟨2, ![128, 256]⟩
/-- The bias [128] and its row form [1, 128]. -/
abbrev SB : Shape := ⟨1, ![128]⟩
abbrev SB1 : Shape := ⟨2, ![1, 128]⟩

/-- The column index q < 128 of a [128, 128] matrix inside the concatenation's left half. -/
abbrev colL (q : Fin 128) : Fin 256 := ⟨q.val, by have := q.isLt; omega⟩
/-- The same column inside the right half. -/
abbrev colR (q : Fin 128) : Fin 256 := ⟨128 + q.val, by have := q.isLt; omega⟩

/-- Entry (r, q) of the product  x · w  of node features with one weight matrix:  ∑ k, x[r, k] · w[k, q]. -/
def prodAt (x : SN.Idx → EReal) (w : SW.Idx → EReal) (r : Fin 100000) (q : Fin 128) : EReal :=
  ∑ k : Fin 128, x (ix2 r k) * w (ix2 k q)

/-- Entry (r, q) of the product with a [128, 256] matrix, q in the left half of the columns. -/
def prodLAt (x : SN.Idx → EReal) (ww : SWW.Idx → EReal) (r : Fin 100000) (q : Fin 128) : EReal :=
  ∑ k : Fin 128, x (ix2 r k) * ww (ix2 k (colL q))

/-- The same in the right half of the columns. -/
def prodRAt (x : SN.Idx → EReal) (ww : SWW.Idx → EReal) (r : Fin 100000) (q : Fin 128) : EReal :=
  ∑ k : Fin 128, x (ix2 r k) * ww (ix2 k (colR q))

/-- Entry q of a bias row [1, 128]. -/
def rowAt (br : SB1.Idx → EReal) (q : Fin 128) : EReal := br (ix2 (0 : Fin 1) q)

/-- Entry q of a bias vector [128]. -/
def vecAt (b : SB.Idx → EReal) (q : Fin 128) : EReal := b (ix1 q)

/-- The product  x · w  as an array. -/
def prod (x : SN.Idx → EReal) (w : SW.Idx → EReal) : SN.Idx → EReal := fun i => prodAt x w (i 0) (i 1)

/-- Columns 0..127 of the product with a [128, 256] matrix. -/
def prodL (x : SN.Idx → EReal) (ww : SWW.Idx → EReal) : SN.Idx → EReal := fun i => prodLAt x ww (i 0) (i 1)

/-- Columns 128..255 of that product, plus a bias row. -/
def prodRBias (x : SN.Idx → EReal) (ww : SWW.Idx → EReal) (br : SB1.Idx → EReal) : SN.Idx → EReal :=
  fun i => prodRAt x ww (i 0) (i 1) + rowAt br (i 1)

/-- Column q < 128 of  [W | Wloop]  is column q of W. -/
theorem concat_left (w wl : SW.Idx → EReal) (h : Shape.Concatenates [SW, SW] SWW 1) (k q : Fin 128) :
    concatenate SWW 1 [⟨SW, w⟩, ⟨SW, wl⟩] h (ix2 k (colL q)) = w (ix2 k q) :=
  concatenate_pair_apply_left (t := SWW) (s₁ := SW) (s₂ := SW) (1 : Fin 2) w wl h (ix2 k (colL q)) rfl (ix2 k q)
    (fun b => by match b with | ⟨0, _⟩ => rfl | ⟨1, _⟩ => rfl)

/-- Column 128 + q of  [W | Wloop]  is column q of Wloop. -/
theorem concat_right (w wl : SW.Idx → EReal) (h : Shape.Concatenates [SW, SW] SWW 1) (k q : Fin 128) :
    concatenate SWW 1 [⟨SW, w⟩, ⟨SW, wl⟩] h (ix2 k (colR q)) = wl (ix2 k q) :=
  concatenate_pair_apply_right (t := SWW) (s₁ := SW) (s₂ := SW) (1 : Fin 2) w wl h (ix2 k (colR q)) rfl rfl (ix2 k q)
    (fun b hb => by match b, hb with | ⟨0, _⟩, _ => rfl | ⟨1, _⟩, hb => exact absurd rfl hb)
    (by show q.val + 128 = 128 + q.val; omega)

/-- The left half of the product with  [W | Wloop]  is the product with W, entry by entry. -/
theorem prodLAt_concat (x : SN.Idx → EReal) (w wl : SW.Idx → EReal) (h : Shape.Concatenates [SW, SW] SWW 1)
    (r : Fin 100000) (q : Fin 128) :
    prodLAt x (concatenate SWW 1 [⟨SW, w⟩, ⟨SW, wl⟩] h) r q = prodAt x w r q := by
  unfold prodLAt prodAt
  exact Finset.sum_congr rfl fun k _ => by rw [concat_left]

/-- The right half is the product with Wloop. -/
theorem prodRAt_concat (x : SN.Idx → EReal) (w wl : SW.Idx → EReal) (h : Shape.Concatenates [SW, SW] SWW 1)
    (r : Fin 100000) (q : Fin 128) :
    prodRAt x (concatenate SWW 1 [⟨SW, w⟩, ⟨SW, wl⟩] h) r q = prodAt x wl r q := by
  unfold prodRAt prodAt
  exact Finset.sum_congr rfl fun k _ => by rw [concat_right]

theorem prodL_concat (x : SN.Idx → EReal) (w wl : SW.Idx → EReal) (h : Shape.Concatenates [SW, SW] SWW 1) :
    prodL x (concatenate SWW 1 [⟨SW, w⟩, ⟨SW, wl⟩] h) = prod x w :=
  funext fun i => prodLAt_concat x w wl h (i 0) (i 1)

/-- The bias as a row [1, 128]: entry (0, q) is entry q. -/
theorem bias_row (b : SB.Idx → EReal) (h : SB.ShapeCasts SB1) (q : Fin 128) :
    rowAt (shapeCast SB1 b h) q = vecAt b q :=
  shapeCast_apply b h _ _ (by rw [Shape.rowMajor_val_one, Shape.rowMajor_val_two]; show q.val = 0 * 128 + q.val; omega)

/-- The right half of the product with  [W | Wloop]  plus the bias row, is the product with Wloop plus the bias. -/
theorem prodRBias_concat (x : SN.Idx → EReal) (w wl : SW.Idx → EReal) (h : Shape.Concatenates [SW, SW] SWW 1)
    (b : SB.Idx → EReal) (hb : SB.ShapeCasts SB1) :
    prodRBias x (concatenate SWW 1 [⟨SW, w⟩, ⟨SW, wl⟩] h) (shapeCast SB1 b hb) = fun i => prod x wl i + vecAt b (i 1) :=
  funext fun i => congrArg₂ (· + ·) (prodRAt_concat x w wl h (i 0) (i 1)) (bias_row b hb (i 1))

/-- The bias broadcast down the rows, the reference's way ([128] → [1, 128] → [100000, 128]): entry (r, q) is entry q. -/
theorem bias_bcast (b : SB.Idx → EReal) (h1 : SB.BroadcastsInDim SB1 (![1] : Fin 1 → Fin 2))
    (h2 : SB1.BroadcastsInDim SN (![0, 1] : Fin 2 → Fin 2)) (r : Fin 100000) (q : Fin 128) :
    broadcastInDim SN ![0, 1] h2 (broadcastInDim SB1 ![1] h1 b) (ix2 r q) = vecAt b q := by
  rw [broadcastInDim_apply _ h2 _ (ix2 r q) (ix2 (0 : Fin 1) q)
    (fun a => by match a with | ⟨0, _⟩ => rfl | ⟨1, _⟩ => rfl)]
  exact broadcastInDim_apply _ h1 _ _ (ix1 q) (fun a => by match a with | ⟨0, _⟩ => rfl)

/-- One layer, the kernel's grouping against the reference's:  a + (p + b) = (a + p) + b  entry by entry. -/
theorem layer_assoc (a p : SN.Idx → EReal) (b : SB.Idx → EReal) :
    (fun i => a i + (p i + vecAt b (i 1))) = fun i => (a i + p i) + vecAt b (i 1) :=
  funext fun i => (add_assoc _ _ _).symm

end Cert.GraphConv

end
-- ==== Proof.Region0.lean ====
/-
  The dense region: one [5000, 128] × [128, 256] product per row block, its left 128 columns written to the first output
  (the support), its right 128 columns plus the bias row to the second (the self-loop term).
  Entry (p, q') of the product is the sum over k of x[p, k] · ww[k, q']; the left slice reads q' = q, the right slice
  q' = 128 + q. The change of float format before the product is the identity at the extended reals, and the product
  accumulates into zero. Grid point t reads rows 5000·t … of the node features and the whole weight and bias arrays, and
  writes rows 5000·t … of both outputs: block t of ONE function of the arrays, and the 20 blocks tile each output.
-/
import proofs.«115879_j90563680403918_1_alg».proof.Proof.Gen.KernelIdeal.Frame
import Idealize.ShloMosaic.Lib.ValueIdx
import Idealize.ShloMosaic.Lib.Pipeline.Value
import Idealize.ShloMosaic.PureOps.Ideal.Laws
import proofs.«115879_j90563680403918_1_alg».proof.Proof.Spec
import proofs.«115879_j90563680403918_1_alg».proof.Proof.Spec

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffers as the region finds them
variable (V : (c : Dev nD) → (b : Ref sig .tc) → Buf (Elt Ideal) ((c : Thread nD τ).loc b))

theorem hz : (![0, 0] : Fin 2 → Nat) = fun _ => 0 := funext fun a => by fin_cases a <;> rfl

/-- The arrays as the region finds them: node features, the two weight matrices side by side, the bias row. -/
abbrev a0 (c : Dev nD) : S100000x128.Idx → EReal := V c (Pipeline.arrRef spec0 0)
abbrev a1 (c : Dev nD) : S128x256.Idx → EReal := V c (Pipeline.arrRef spec0 1)
abbrev a2 (c : Dev nD) : S1x128.Idx → EReal := V c (Pipeline.arrRef spec0 2)

/-! ## The product at an index -/

theorem lhs_0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, q') of a row block's product with the [128, 256] matrix, accumulated into zero:  ∑ k, l[p, k] · r[k, q']. -/
theorem mm_at (l : S5000x128.Idx → EReal) (r : S128x256.Idx → EReal) (p : Fin 5000) (q' : Fin 256) :
    FloatOps.matmul (F := Ideal) (φ₁ := .bf16) (φ₂ := .bf16) dot_S5000x128_S128x256_S5000x256_1_0_0_1_n_n none l r (constant S5000x256 .f32 0x00000000#32) (ix2 p q')
      = ∑ k : Fin 128, l (ix2 p k) * r (ix2 k q') := by
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q') ((ValueIdx.contrEquiv1 dot_S5000x128_S128x256_S5000x256_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x256_S5000x256_1_0_0_1_n_n.rhsIdx (ix2 p q') ((ValueIdx.contrEquiv1 dot_S5000x128_S128x256_S5000x256_1_0_0_1_n_n 128 rfl rfl).symm k) = ix2 k q' := funext fun a => Fin.ext (by
    match a with
    | ⟨0, _⟩ => exact (rhs_0 _ _).trans hk
    | ⟨1, _⟩ => exact rhs_1 _ _)
  rw [el, er]

/-- The product payload is the product of the two loaded blocks into zero (format changes and a same-shape cast aside). -/
theorem pay1_eq (x0 : Vec Ideal S5000x128 .f32) (x1 : Vec Ideal S128x256 .f32) :
    k0_pay1 x0 x1 = FloatOps.matmul (F := Ideal) (φ₁ := .bf16) (φ₂ := .bf16) dot_S5000x128_S128x256_S5000x256_1_0_0_1_n_n none x0 x1 (constant S5000x256 .f32 0x00000000#32) := by
  unfold k0_pay1
  simp only [shapeCast_self]
  rfl

/-- The support payload at (p, q): the left half of the product. -/
theorem pay2_at (x0 : Vec Ideal S5000x128 .f32) (x1 : Vec Ideal S128x256 .f32) (p : Fin 5000) (q : Fin 128) :
    k0_pay2 x0 x1 (ix2 p q) = ∑ k : Fin 128, x0 (ix2 p k) * x1 (ix2 k (Cert.GraphConv.colL q)) := by
  unfold k0_pay2
  refine (extractStridedSlice_apply _ _ _ (ix2 p q) (ix2 p (Cert.GraphConv.colL q)) (fun a => by
    match a with
    | ⟨0, _⟩ => show p.val = 0 + p.val; omega
    | ⟨1, _⟩ => show q.val = 0 + q.val; omega)).trans ?_
  rw [pay1_eq]
  exact mm_at x0 x1 p _

/-- The self-loop payload at (p, q): the right half of the product plus the bias row's entry q. -/
theorem pay3_at (x0 : Vec Ideal S5000x128 .f32) (x1 : Vec Ideal S128x256 .f32) (x2 : Vec Ideal S1x128 .f32) (p : Fin 5000) (q : Fin 128) :
    k0_pay3 x0 x1 x2 (ix2 p q) = (∑ k : Fin 128, x0 (ix2 p k) * x1 (ix2 k (Cert.GraphConv.colR q))) + x2 (ix2 (0 : Fin 1) q) := by
  unfold k0_pay3
  show extractStridedSlice S5000x128 ![0, 128] (k0_pay1 x0 x1) slices_S5000x256_o0_128_S5000x128 (ix2 p q)
      + broadcastTo S5000x128 (shapeCast S1x128 x2 shapeCasts_S1x128_S1x128) broadcasts_S1x128_S5000x128 (ix2 p q) = _
  refine congrArg₂ (· + ·) ?_ ?_
  · refine (extractStridedSlice_apply _ _ _ (ix2 p q) (ix2 p (Cert.GraphConv.colR q)) (fun a => by
      match a with
      | ⟨0, _⟩ => show p.val = 0 + p.val; omega
      | ⟨1, _⟩ => show 128 + q.val = 128 + q.val; rfl)).trans ?_
    rw [pay1_eq]
    exact mm_at x0 x1 p _
  · rw [shapeCast_self]
    exact broadcastTo_apply x2 _ (ix2 p q) (ix2 (0 : Fin 1) q) (fun a => by
      match a with
      | ⟨0, _⟩ => rfl
      | ⟨1, _⟩ => rfl)

/-! ## The index maps, decided over the 20 grid points -/

/-- Window 0 and the two output windows sit at block (t, 0); the weight and bias windows at block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = win0_4.index t (0 : Fin 2) ∧ win0_3.index t (1 : Fin 2) = 0
    ∧ win0_4.index t (0 : Fin 2) = win0_3.index t (0 : Fin 2) ∧ win0_4.index t (1 : Fin 2) = 0
    ∧ win0_3.index t (0 : Fin 2) ≤ 19 ∧ win0_4.index t (0 : Fin 2) ≤ 19 :=
  (by decide +kernel : ∀ t : Fin grid0.N, _)

/-- Every row block is some point's, in both output windows. -/
theorem idx_onto3 : ∀ q0 : Fin 20, ∃ t : Fin cfg0.N, win0_3.index t = ![q0.val, 0] :=
  (by decide +kernel : ∀ q0 : Fin 20, ∃ t : Fin grid0.N, win0_3.index t = ![q0.val, 0])
theorem idx_onto4 : ∀ q0 : Fin 20, ∃ t : Fin cfg0.N, win0_4.index t = ![q0.val, 0] :=
  (by decide +kernel : ∀ q0 : Fin 20, ∃ t : Fin grid0.N, win0_4.index t = ![q0.val, 0])

/-! ## Output window 3: the support -/

/-- What point t writes back through window 3 is block t of the left half of the product of the node features with the weight array. -/
theorem flushed3_eq (c : Dev nD) (t : Fin cfg0.N) :
    (dat0 V c).flushed 3 t = ((cfg0.win 3).blk t).view.read (Elt Ideal) (Cert.GraphConv.prodL (a0 V c) (a1 V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x256) hz, View.ld_unit_zero (S := S1x128) hz]
  obtain ⟨e00, e01, e10, e11, e20, e21, e30, e31, e40, e41, e3le, e4le⟩ := idx_facts t
  funext j
  obtain ⟨p, q, rfl⟩ : ∃ (p : Fin 5000) (q : Fin 128), j = ix2 p q := ⟨j 0, j 1, eq_ix2 j⟩
  show k0_pay2 (iblk0 V c 0 t) (iblk0 V c 1 t) (ix2 p q)
     = Cert.GraphConv.prodLAt (a0 V c) (a1 V c) (((cfg0.win 3).blk t).view.emb (ix2 p q) 0) (((cfg0.win 3).blk t).view.emb (ix2 p q) 1)
  refine (pay2_at (iblk0 V c 0 t) (iblk0 V c 1 t) p q).trans ?_
  unfold Cert.GraphConv.prodLAt
  refine Finset.sum_congr rfl fun k _ => ?_
  refine congrArg₂ (· * ·) ?_ ?_
  · show a0 V c (((cfg0.win 0).blk t).view.emb (ix2 p k))
       = a0 V c (ix2 (n0 := 100000) (n1 := 128) (((cfg0.win 3).blk t).view.emb (ix2 p q) 0) k)
    refine congrArg (a0 V c) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 128 + 1 * k.val = k.val; omega
  · show a1 V c (((cfg0.win 1).blk t).view.emb (ix2 k (Cert.GraphConv.colL q)))
       = a1 V c (ix2 (n0 := 128) (n1 := 256) k (Cert.GraphConv.colL (((cfg0.win 3).blk t).view.emb (ix2 p q) 1)))
    refine congrArg (a1 V c) (funext fun a => Fin.ext ?_)
    match a with
    | ⟨0, _⟩ => show win0_1.index t (0 : Fin 2) * 128 + 1 * k.val = k.val; omega
    | ⟨1, _⟩ => show win0_1.index t (1 : Fin 2) * 256 + 1 * q.val = win0_3.index t (1 : Fin 2) * 128 + 1 * q.val; omega

/-- An index of the array is in point t's block of window 3 iff each coordinate is in the block's range on its axis. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2_0).slice (win0_3.rect t)).set ↔ _
  rw [View.set_slice_whole, Rect.mem_set_unit]
  exact Iff.rfl

/-- The 20 row blocks of window 3 cover its array: row r lies in the block of point r / 5000. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto3 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The support array after the region: the left half of the product, of the arrays as the region found them. -/
theorem final3 (c : Dev nD) : (dat0 V c).arrAt 3 cfg0.N = Cert.GraphConv.prodL (a0 V c) (a1 V c) :=
  (dat0 V c).arrAt_eq_of_cover 3 _ (fun t _ => flushed3_eq V c t) cover3

/-! ## Output window 4: the self-loop term -/

/-- What point t writes back through window 4 is block t of the right half of the product plus the bias row. -/
theorem flushed4_eq (c : Dev nD) (t : Fin cfg0.N) :
    (dat0 V c).flushed 4 t = ((cfg0.win 4).blk t).view.read (Elt Ideal) (Cert.GraphConv.prodRBias (a0 V c) (a1 V c) (a2 V c)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x256) hz, View.ld_unit_zero (S := S1x128) hz]
  obtain ⟨e00, e01, e10, e11, e20, e21, e30, e31, e40, e41, e3le, e4le⟩ := idx_facts t
  funext j
  obtain ⟨p, q, rfl⟩ : ∃ (p : Fin 5000) (q : Fin 128), j = ix2 p q := ⟨j 0, j 1, eq_ix2 j⟩
  show k0_pay3 (iblk0 V c 0 t) (iblk0 V c 1 t) (iblk0 V c 2 t) (ix2 p q)
     = Cert.GraphConv.prodRAt (a0 V c) (a1 V c) (((cfg0.win 4).blk t).view.emb (ix2 p q) 0) (((cfg0.win 4).blk t).view.emb (ix2 p q) 1)
       + Cert.GraphConv.rowAt (a2 V c) (((cfg0.win 4).blk t).view.emb (ix2 p q) 1)
  refine (pay3_at (iblk0 V c 0 t) (iblk0 V c 1 t) (iblk0 V c 2 t) p q).trans ?_
  unfold Cert.GraphConv.prodRAt Cert.GraphConv.rowAt
  refine congrArg₂ (· + ·) (Finset.sum_congr rfl fun k _ => congrArg₂ (· * ·) ?_ ?_) ?_
  · show a0 V c (((cfg0.win 0).blk t).view.emb (ix2 p k))
       = a0 V c (ix2 (n0 := 100000) (n1 := 128) (((cfg0.win 4).blk t).view.emb (ix2 p q) 0) k)
    refine congrArg (a0 V c) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 128 + 1 * k.val = k.val; omega
  · show a1 V c (((cfg0.win 1).blk t).view.emb (ix2 k (Cert.GraphConv.colR q)))
       = a1 V c (ix2 (n0 := 128) (n1 := 256) k (Cert.GraphConv.colR (((cfg0.win 4).blk t).view.emb (ix2 p q) 1)))
    refine congrArg (a1 V c) (funext fun a => Fin.ext ?_)
    match a with
    | ⟨0, _⟩ => show win0_1.index t (0 : Fin 2) * 128 + 1 * k.val = k.val; omega
    | ⟨1, _⟩ => show win0_1.index t (1 : Fin 2) * 256 + 1 * (128 + q.val) = 128 + (win0_4.index t (1 : Fin 2) * 128 + 1 * q.val); omega
  · show a2 V c (((cfg0.win 2).blk t).view.emb (ix2 (0 : Fin 1) q))
       = a2 V c (ix2 (n0 := 1) (n1 := 128) (0 : Fin 1) (((cfg0.win 4).blk t).view.emb (ix2 p q) 1))
    refine congrArg (a2 V c) (funext fun a => Fin.ext ?_)
    match a with
    | ⟨0, _⟩ => show win0_2.index t (0 : Fin 2) * 1 + 1 * 0 = 0; omega
    | ⟨1, _⟩ => show win0_2.index t (1 : Fin 2) * 128 + 1 * q.val = win0_4.index t (1 : Fin 2) * 128 + 1 * q.val; omega

/-- An index of the array is in point t's block of window 4 iff each coordinate is in the block's range on its axis. -/
theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v2_1).slice (win0_4.rect t)).set ↔ _
  rw [View.set_slice_whole, Rect.mem_set_unit]
  exact Iff.rfl

/-- The 20 row blocks of window 4 cover its array: row r lies in the block of point r / 5000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto4 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-- The self-loop array after the region: the right half of the product plus the bias row, of the arrays as the region found them. -/
theorem final4 (c : Dev nD) : (dat0 V c).arrAt 4 cfg0.N = Cert.GraphConv.prodRBias (a0 V c) (a1 V c) (a2 V c) :=
  (dat0 V c).arrAt_eq_of_cover 4 _ (fun t _ => flushed4_eq V c t) cover4

end Cert.KernelIdeal.Region0

end
-- ==== Proof.Region1.lean ====
/-
  An add region: out = agg + xloop over [100000, 128], in 20 row blocks of 5000.
  Grid point t reads block t of both inputs and writes block t of the output, each the same rows 5000·t … 5000·t + 4999
  of its array; the body is pointwise, so what point t writes back is block t of ONE function of the two input
  arrays, and the 20 blocks tile the output array.
-/
import proofs.«115879_j90563680403918_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffers as the region finds them
variable (V : (c : Dev nD) → (b : Ref sig .tc) → Buf (Elt Ideal) ((c : Thread nD τ).loc b))

theorem hz : (![0, 0] : Fin 2 → Nat) = fun _ => 0 := funext fun a => by fin_cases a <;> rfl

/-- The two input arrays as the region finds them. -/
abbrev a0 (c : Dev nD) : S100000x128.Idx → EReal := V c (Pipeline.arrRef spec1 0)
abbrev a1 (c : Dev nD) : S100000x128.Idx → EReal := V c (Pipeline.arrRef spec1 1)

/-- The sum, entry by entry. -/
def G (a0 a1 : S100000x128.Idx → EReal) : S100000x128.Idx → EReal := addf (F := Ideal) (φ := .f32) a0 a1

/-- The body's arithmetic on its two loaded blocks. -/
theorem pay (x0 x1 : Vec Ideal S5000x128 .f32) : k1_pay1 x0 x1 = addf (F := Ideal) (φ := .f32) x0 x1 := by
  unfold k1_pay1
  simp only [shapeCast_self]

/-- The three index maps, decided over the 20 grid points: all three windows sit at block (t, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 19 ∧ win1_2.index t (1 : Fin 2) = 0 :=
  (by decide +kernel : ∀ t : Fin grid1.N, _)

/-- Every row block is some point's. -/
theorem idx_onto : ∀ q0 : Fin 20, ∃ t : Fin cfg1.N, win1_2.index t = ![q0.val, 0] :=
  (by decide +kernel : ∀ q0 : Fin 20, ∃ t : Fin grid1.N, win1_2.index t = ![q0.val, 0])

/-- What point t writes back is block t of the sum of the two input arrays. -/
theorem flushed_eq (c : Dev nD) (t : Fin cfg1.N) :
    (dat1 V c).flushed 2 t = ((cfg1.win 2).blk t).view.read (Elt Ideal)
      (G (a0 V c) (a1 V c)) := by
  show (cfg1.win 2).cut (grid1.coords t) ((dat1 V c).after 2 t) = _
  rw [after1_2]
  unfold out1_2
  rw [View.canon_unit_zero hz]
  simp only [View.ld_unit_zero (S := S5000x128) hz]
  rw [pay]
  obtain ⟨e0, e1, e2, e3, e4, e5⟩ := idx_facts t
  funext j
  show FloatOps.addf (F := Ideal) (φ := .f32) (a0 V c (((cfg1.win 0).blk t).view.emb j)) (a1 V c (((cfg1.win 1).blk t).view.emb j))
     = FloatOps.addf (F := Ideal) (φ := .f32) (a0 V c (((cfg1.win 2).blk t).view.emb j)) (a1 V c (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v20).slice (win1_2.rect t)).set ↔ _
  rw [View.set_slice_whole, Rect.mem_set_unit]
  exact Iff.rfl

/-- The 20 row blocks cover the array: row r lies in the block of point r / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the sum of the two input arrays as the region found them. -/
theorem final (c : Dev nD) :
    (dat1 V c).arrAt 2 cfg1.N = G (a0 V c) (a1 V c) :=
  (dat1 V c).arrAt_eq_of_cover 2 _ (fun t _ => flushed_eq V c t) cover

end Cert.KernelIdeal.Region1

end
-- ==== Proof.Region2.lean ====
/-
  The dense region: one [5000, 128] × [128, 256] product per row block, its left 128 columns written to the first output
  (the support), its right 128 columns plus the bias row to the second (the self-loop term).
  Entry (p, q') of the product is the sum over k of x[p, k] · ww[k, q']; the left slice reads q' = q, the right slice
  q' = 128 + q. The change of float format before the product is the identity at the extended reals, and the product
  accumulates into zero. Grid point t reads rows 5000·t … of the node features and the whole weight and bias arrays, and
  writes rows 5000·t … of both outputs: block t of ONE function of the arrays, and the 20 blocks tile each output.
-/
import proofs.«115879_j90563680403918_1_alg».proof.Proof.Gen.KernelIdeal.Frame
import Idealize.ShloMosaic.Lib.ValueIdx
import Idealize.ShloMosaic.Lib.Pipeline.Value
import Idealize.ShloMosaic.PureOps.Ideal.Laws
import proofs.«115879_j90563680403918_1_alg».proof.Proof.Spec
import proofs.«115879_j90563680403918_1_alg».proof.Proof.Spec

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffers as the region finds them
variable (V : (c : Dev nD) → (b : Ref sig .tc) → Buf (Elt Ideal) ((c : Thread nD τ).loc b))

theorem hz : (![0, 0] : Fin 2 → Nat) = fun _ => 0 := funext fun a => by fin_cases a <;> rfl

/-- The arrays as the region finds them: node features, the two weight matrices side by side, the bias row. -/
abbrev a0 (c : Dev nD) : S100000x128.Idx → EReal := V c (Pipeline.arrRef spec2 0)
abbrev a1 (c : Dev nD) : S128x256.Idx → EReal := V c (Pipeline.arrRef spec2 1)
abbrev a2 (c : Dev nD) : S1x128.Idx → EReal := V c (Pipeline.arrRef spec2 2)

/-! ## The product at an index -/

theorem lhs_0 (i : S5000x256.Idx) (q : dot_S5000x128_S128x256_S5000x256_1_0_0_1_n_n.contr.Idx) : (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) : (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) : (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) : (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- Entry (p, q') of a row block's product with the [128, 256] matrix, accumulated into zero:  ∑ k, l[p, k] · r[k, q']. -/
theorem mm_at (l : S5000x128.Idx → EReal) (r : S128x256.Idx → EReal) (p : Fin 5000) (q' : Fin 256) :
    FloatOps.matmul (F := Ideal) (φ₁ := .bf16) (φ₂ := .bf16) dot_S5000x128_S128x256_S5000x256_1_0_0_1_n_n none l r (constant S5000x256 .f32 0x00000000#32) (ix2 p q')
      = ∑ k : Fin 128, l (ix2 p k) * r (ix2 k q') := by
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q') ((ValueIdx.contrEquiv1 dot_S5000x128_S128x256_S5000x256_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x256_S5000x256_1_0_0_1_n_n.rhsIdx (ix2 p q') ((ValueIdx.contrEquiv1 dot_S5000x128_S128x256_S5000x256_1_0_0_1_n_n 128 rfl rfl).symm k) = ix2 k q' := funext fun a => Fin.ext (by
    match a with
    | ⟨0, _⟩ => exact (rhs_0 _ _).trans hk
    | ⟨1, _⟩ => exact rhs_1 _ _)
  rw [el, er]

/-- The product payload is the product of the two loaded blocks into zero (format changes and a same-shape cast aside). -/
theorem pay1_eq (x0 : Vec Ideal S5000x128 .f32) (x1 : Vec Ideal S128x256 .f32) :
    k2_pay1 x0 x1 = FloatOps.matmul (F := Ideal) (φ₁ := .bf16) (φ₂ := .bf16) dot_S5000x128_S128x256_S5000x256_1_0_0_1_n_n none x0 x1 (constant S5000x256 .f32 0x00000000#32) := by
  unfold k2_pay1
  simp only [shapeCast_self]
  rfl

/-- The support payload at (p, q): the left half of the product. -/
theorem pay2_at (x0 : Vec Ideal S5000x128 .f32) (x1 : Vec Ideal S128x256 .f32) (p : Fin 5000) (q : Fin 128) :
    k2_pay2 x0 x1 (ix2 p q) = ∑ k : Fin 128, x0 (ix2 p k) * x1 (ix2 k (Cert.GraphConv.colL q)) := by
  unfold k2_pay2
  refine (extractStridedSlice_apply _ _ _ (ix2 p q) (ix2 p (Cert.GraphConv.colL q)) (fun a => by
    match a with
    | ⟨0, _⟩ => show p.val = 0 + p.val; omega
    | ⟨1, _⟩ => show q.val = 0 + q.val; omega)).trans ?_
  rw [pay1_eq]
  exact mm_at x0 x1 p _

/-- The self-loop payload at (p, q): the right half of the product plus the bias row's entry q. -/
theorem pay3_at (x0 : Vec Ideal S5000x128 .f32) (x1 : Vec Ideal S128x256 .f32) (x2 : Vec Ideal S1x128 .f32) (p : Fin 5000) (q : Fin 128) :
    k2_pay3 x0 x1 x2 (ix2 p q) = (∑ k : Fin 128, x0 (ix2 p k) * x1 (ix2 k (Cert.GraphConv.colR q))) + x2 (ix2 (0 : Fin 1) q) := by
  unfold k2_pay3
  show extractStridedSlice S5000x128 ![0, 128] (k2_pay1 x0 x1) slices_S5000x256_o0_128_S5000x128 (ix2 p q)
      + broadcastTo S5000x128 (shapeCast S1x128 x2 shapeCasts_S1x128_S1x128) broadcasts_S1x128_S5000x128 (ix2 p q) = _
  refine congrArg₂ (· + ·) ?_ ?_
  · refine (extractStridedSlice_apply _ _ _ (ix2 p q) (ix2 p (Cert.GraphConv.colR q)) (fun a => by
      match a with
      | ⟨0, _⟩ => show p.val = 0 + p.val; omega
      | ⟨1, _⟩ => show 128 + q.val = 128 + q.val; rfl)).trans ?_
    rw [pay1_eq]
    exact mm_at x0 x1 p _
  · rw [shapeCast_self]
    exact broadcastTo_apply x2 _ (ix2 p q) (ix2 (0 : Fin 1) q) (fun a => by
      match a with
      | ⟨0, _⟩ => rfl
      | ⟨1, _⟩ => rfl)

/-! ## The index maps, decided over the 20 grid points -/

/-- Window 0 and the two output windows sit at block (t, 0); the weight and bias windows at block (0, 0). -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = win2_4.index t (0 : Fin 2) ∧ win2_3.index t (1 : Fin 2) = 0
    ∧ win2_4.index t (0 : Fin 2) = win2_3.index t (0 : Fin 2) ∧ win2_4.index t (1 : Fin 2) = 0
    ∧ win2_3.index t (0 : Fin 2) ≤ 19 ∧ win2_4.index t (0 : Fin 2) ≤ 19 :=
  (by decide +kernel : ∀ t : Fin grid2.N, _)

/-- Every row block is some point's, in both output windows. -/
theorem idx_onto3 : ∀ q0 : Fin 20, ∃ t : Fin cfg2.N, win2_3.index t = ![q0.val, 0] :=
  (by decide +kernel : ∀ q0 : Fin 20, ∃ t : Fin grid2.N, win2_3.index t = ![q0.val, 0])
theorem idx_onto4 : ∀ q0 : Fin 20, ∃ t : Fin cfg2.N, win2_4.index t = ![q0.val, 0] :=
  (by decide +kernel : ∀ q0 : Fin 20, ∃ t : Fin grid2.N, win2_4.index t = ![q0.val, 0])

/-! ## Output window 3: the support -/

/-- What point t writes back through window 3 is block t of the left half of the product of the node features with the weight array. -/
theorem flushed3_eq (c : Dev nD) (t : Fin cfg2.N) :
    (dat2 V c).flushed 3 t = ((cfg2.win 3).blk t).view.read (Elt Ideal) (Cert.GraphConv.prodL (a0 V c) (a1 V c)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x256) hz, View.ld_unit_zero (S := S1x128) hz]
  obtain ⟨e00, e01, e10, e11, e20, e21, e30, e31, e40, e41, e3le, e4le⟩ := idx_facts t
  funext j
  obtain ⟨p, q, rfl⟩ : ∃ (p : Fin 5000) (q : Fin 128), j = ix2 p q := ⟨j 0, j 1, eq_ix2 j⟩
  show k2_pay2 (iblk2 V c 0 t) (iblk2 V c 1 t) (ix2 p q)
     = Cert.GraphConv.prodLAt (a0 V c) (a1 V c) (((cfg2.win 3).blk t).view.emb (ix2 p q) 0) (((cfg2.win 3).blk t).view.emb (ix2 p q) 1)
  refine (pay2_at (iblk2 V c 0 t) (iblk2 V c 1 t) p q).trans ?_
  unfold Cert.GraphConv.prodLAt
  refine Finset.sum_congr rfl fun k _ => ?_
  refine congrArg₂ (· * ·) ?_ ?_
  · show a0 V c (((cfg2.win 0).blk t).view.emb (ix2 p k))
       = a0 V c (ix2 (n0 := 100000) (n1 := 128) (((cfg2.win 3).blk t).view.emb (ix2 p q) 0) k)
    refine congrArg (a0 V c) (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  · show a1 V c (((cfg2.win 1).blk t).view.emb (ix2 k (Cert.GraphConv.colL q)))
       = a1 V c (ix2 (n0 := 128) (n1 := 256) k (Cert.GraphConv.colL (((cfg2.win 3).blk t).view.emb (ix2 p q) 1)))
    refine congrArg (a1 V c) (funext fun a => Fin.ext ?_)
    match a with
    | ⟨0, _⟩ => show win2_1.index t (0 : Fin 2) * 128 + 1 * k.val = k.val; omega
    | ⟨1, _⟩ => show win2_1.index t (1 : Fin 2) * 256 + 1 * q.val = win2_3.index t (1 : Fin 2) * 128 + 1 * q.val; omega

/-- An index of the array is in point t's block of window 3 iff each coordinate is in the block's range on its axis. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v23_0).slice (win2_3.rect t)).set ↔ _
  rw [View.set_slice_whole, Rect.mem_set_unit]
  exact Iff.rfl

/-- The 20 row blocks of window 3 cover its array: row r lies in the block of point r / 5000. -/
theorem cover3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto3 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk3]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The support array after the region: the left half of the product, of the arrays as the region found them. -/
theorem final3 (c : Dev nD) : (dat2 V c).arrAt 3 cfg2.N = Cert.GraphConv.prodL (a0 V c) (a1 V c) :=
  (dat2 V c).arrAt_eq_of_cover 3 _ (fun t _ => flushed3_eq V c t) cover3

/-! ## Output window 4: the self-loop term -/

/-- What point t writes back through window 4 is block t of the right half of the product plus the bias row. -/
theorem flushed4_eq (c : Dev nD) (t : Fin cfg2.N) :
    (dat2 V c).flushed 4 t = ((cfg2.win 4).blk t).view.read (Elt Ideal) (Cert.GraphConv.prodRBias (a0 V c) (a1 V c) (a2 V c)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x256) hz, View.ld_unit_zero (S := S1x128) hz]
  obtain ⟨e00, e01, e10, e11, e20, e21, e30, e31, e40, e41, e3le, e4le⟩ := idx_facts t
  funext j
  obtain ⟨p, q, rfl⟩ : ∃ (p : Fin 5000) (q : Fin 128), j = ix2 p q := ⟨j 0, j 1, eq_ix2 j⟩
  show k2_pay3 (iblk2 V c 0 t) (iblk2 V c 1 t) (iblk2 V c 2 t) (ix2 p q)
     = Cert.GraphConv.prodRAt (a0 V c) (a1 V c) (((cfg2.win 4).blk t).view.emb (ix2 p q) 0) (((cfg2.win 4).blk t).view.emb (ix2 p q) 1)
       + Cert.GraphConv.rowAt (a2 V c) (((cfg2.win 4).blk t).view.emb (ix2 p q) 1)
  refine (pay3_at (iblk2 V c 0 t) (iblk2 V c 1 t) (iblk2 V c 2 t) p q).trans ?_
  unfold Cert.GraphConv.prodRAt Cert.GraphConv.rowAt
  refine congrArg₂ (· + ·) (Finset.sum_congr rfl fun k _ => congrArg₂ (· * ·) ?_ ?_) ?_
  · show a0 V c (((cfg2.win 0).blk t).view.emb (ix2 p k))
       = a0 V c (ix2 (n0 := 100000) (n1 := 128) (((cfg2.win 4).blk t).view.emb (ix2 p q) 0) k)
    refine congrArg (a0 V c) (funext fun a => Fin.ext ?_)
    match a with
    | ⟨0, _⟩ => show win2_0.index t (0 : Fin 2) * 5000 + 1 * p.val = win2_4.index t (0 : Fin 2) * 5000 + 1 * p.val; omega
    | ⟨1, _⟩ => show win2_0.index t (1 : Fin 2) * 128 + 1 * k.val = k.val; omega
  · show a1 V c (((cfg2.win 1).blk t).view.emb (ix2 k (Cert.GraphConv.colR q)))
       = a1 V c (ix2 (n0 := 128) (n1 := 256) k (Cert.GraphConv.colR (((cfg2.win 4).blk t).view.emb (ix2 p q) 1)))
    refine congrArg (a1 V c) (funext fun a => Fin.ext ?_)
    match a with
    | ⟨0, _⟩ => show win2_1.index t (0 : Fin 2) * 128 + 1 * k.val = k.val; omega
    | ⟨1, _⟩ => show win2_1.index t (1 : Fin 2) * 256 + 1 * (128 + q.val) = 128 + (win2_4.index t (1 : Fin 2) * 128 + 1 * q.val); omega
  · show a2 V c (((cfg2.win 2).blk t).view.emb (ix2 (0 : Fin 1) q))
       = a2 V c (ix2 (n0 := 1) (n1 := 128) (0 : Fin 1) (((cfg2.win 4).blk t).view.emb (ix2 p q) 1))
    refine congrArg (a2 V c) (funext fun a => Fin.ext ?_)
    match a with
    | ⟨0, _⟩ => show win2_2.index t (0 : Fin 2) * 1 + 1 * 0 = 0; omega
    | ⟨1, _⟩ => show win2_2.index t (1 : Fin 2) * 128 + 1 * q.val = win2_4.index t (1 : Fin 2) * 128 + 1 * q.val; omega

/-- An index of the array is in point t's block of window 4 iff each coordinate is in the block's range on its axis. -/
theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v23_1).slice (win2_4.rect t)).set ↔ _
  rw [View.set_slice_whole, Rect.mem_set_unit]
  exact Iff.rfl

/-- The 20 row blocks of window 4 cover its array: row r lies in the block of point r / 5000. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto4 ⟨(i 0).val / 5000, by omega⟩
  have q0 : win2_4.index t (0 : Fin 2) = (i 0).val / 5000 := congrFun ht 0
  have q1 : win2_4.index t (1 : Fin 2) = 0 := congrFun ht 1
  refine ⟨t, flush2_4 t, ?_⟩
  rw [mem_blk4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

/-- The self-loop array after the region: the right half of the product plus the bias row, of the arrays as the region found them. -/
theorem final4 (c : Dev nD) : (dat2 V c).arrAt 4 cfg2.N = Cert.GraphConv.prodRBias (a0 V c) (a1 V c) (a2 V c) :=
  (dat2 V c).arrAt_eq_of_cover 4 _ (fun t _ => flushed4_eq V c t) cover4

end Cert.KernelIdeal.Region2

end
-- ==== Proof.Region3.lean ====
/-
  An add region: out = agg + xloop over [100000, 128], in 20 row blocks of 5000.
  Grid point t reads block t of both inputs and writes block t of the output, each the same rows 5000·t … 5000·t + 4999
  of its array; the body is pointwise, so what point t writes back is block t of ONE function of the two input
  arrays, and the 20 blocks tile the output array.
-/
import proofs.«115879_j90563680403918_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffers as the region finds them
variable (V : (c : Dev nD) → (b : Ref sig .tc) → Buf (Elt Ideal) ((c : Thread nD τ).loc b))

theorem hz : (![0, 0] : Fin 2 → Nat) = fun _ => 0 := funext fun a => by fin_cases a <;> rfl

/-- The two input arrays as the region finds them. -/
abbrev a0 (c : Dev nD) : S100000x128.Idx → EReal := V c (Pipeline.arrRef spec3 0)
abbrev a1 (c : Dev nD) : S100000x128.Idx → EReal := V c (Pipeline.arrRef spec3 1)

/-- The sum, entry by entry. -/
def G (a0 a1 : S100000x128.Idx → EReal) : S100000x128.Idx → EReal := addf (F := Ideal) (φ := .f32) a0 a1

/-- The body's arithmetic on its two loaded blocks. -/
theorem pay (x0 x1 : Vec Ideal S5000x128 .f32) : k3_pay1 x0 x1 = addf (F := Ideal) (φ := .f32) x0 x1 := by
  unfold k3_pay1
  simp only [shapeCast_self]

/-- The three index maps, decided over the 20 grid points: all three windows sit at block (t, 0). -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 19 ∧ win3_2.index t (1 : Fin 2) = 0 :=
  (by decide +kernel : ∀ t : Fin grid3.N, _)

/-- Every row block is some point's. -/
theorem idx_onto : ∀ q0 : Fin 20, ∃ t : Fin cfg3.N, win3_2.index t = ![q0.val, 0] :=
  (by decide +kernel : ∀ q0 : Fin 20, ∃ t : Fin grid3.N, win3_2.index t = ![q0.val, 0])

/-- What point t writes back is block t of the sum of the two input arrays. -/
theorem flushed_eq (c : Dev nD) (t : Fin cfg3.N) :
    (dat3 V c).flushed 2 t = ((cfg3.win 2).blk t).view.read (Elt Ideal)
      (G (a0 V c) (a1 V c)) := by
  show (cfg3.win 2).cut (grid3.coords t) ((dat3 V c).after 2 t) = _
  rw [after3_2]
  unfold out3_2
  rw [View.canon_unit_zero hz]
  simp only [View.ld_unit_zero (S := S5000x128) hz]
  rw [pay]
  obtain ⟨e0, e1, e2, e3, e4, e5⟩ := idx_facts t
  funext j
  show FloatOps.addf (F := Ideal) (φ := .f32) (a0 V c (((cfg3.win 0).blk t).view.emb j)) (a1 V c (((cfg3.win 1).blk t).view.emb j))
     = FloatOps.addf (F := Ideal) (φ := .f32) (a0 V c (((cfg3.win 2).blk t).view.emb j)) (a1 V c (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  rw [h0, h1]

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v41).slice (win3_2.rect t)).set ↔ _
  rw [View.set_slice_whole, Rect.mem_set_unit]
  exact Iff.rfl

/-- The 20 row blocks cover the array: row r lies in the block of point r / 5000. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The output array after the region: the sum of the two input arrays as the region found them. -/
theorem final (c : Dev nD) :
    (dat3 V c).arrAt 2 cfg3.N = G (a0 V c) (a1 V c) :=
  (dat3 V c).arrAt_eq_of_cover 2 _ (fun t _ => flushed_eq V c t) cover

end Cert.KernelIdeal.Region3

end
-- ==== Proof.Region4.lean ====
/-
  The last region: out = (x + h) · 0.5 over [100000, 128], in 20 row blocks of 5000.
  Grid point t reads block t of both inputs and writes block t of the output, each the same rows 5000·t … 5000·t + 4999
  of its array; the body is pointwise, so what point t writes back is block t of ONE function of the two input
  arrays, and the 20 blocks tile the output array.
-/
import proofs.«115879_j90563680403918_1_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the TensorCore's buffers as the region finds them
variable (V : (c : Dev nD) → (b : Ref sig .tc) → Buf (Elt Ideal) ((c : Thread nD τ).loc b))

theorem hz : (![0, 0] : Fin 2 → Nat) = fun _ => 0 := funext fun a => by fin_cases a <;> rfl

/-- The two input arrays as the region finds them. -/
abbrev a0 (c : Dev nD) : S100000x128.Idx → EReal := V c (Pipeline.arrRef spec4 0)
abbrev a1 (c : Dev nD) : S100000x128.Idx → EReal := V c (Pipeline.arrRef spec4 1)

/-- Half the sum, entry by entry. -/
def G (a0 a1 : S100000x128.Idx → EReal) : S100000x128.Idx → EReal :=
  mulf (F := Ideal) (addf (F := Ideal) (φ := .f32) a0 a1) (broadcast S100000x128 (Scalar.ofBits (F := Ideal) .f32 0x3F000000#32))

/-- The body's arithmetic on its two loaded blocks. -/
theorem pay (x0 x1 : Vec Ideal S5000x128 .f32) :
    k4_pay1 x0 x1 = mulf (F := Ideal) (addf (F := Ideal) (φ := .f32) x0 x1) (broadcast S5000x128 (Scalar.ofBits (F := Ideal) .f32 0x3F000000#32)) := by
  unfold k4_pay1
  rw [shapeCast_self]

/-- The three index maps, decided over the 20 grid points: all three windows sit at block (t, 0). -/
theorem idx_facts : ∀ t : Fin cfg4.N, win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = win4_2.index t (1 : Fin 2)
    ∧ win4_2.index t (0 : Fin 2) ≤ 19 ∧ win4_2.index t (1 : Fin 2) = 0 :=
  (by decide +kernel : ∀ t : Fin grid4.N, _)

/-- Every row block is some point's. -/
theorem idx_onto : ∀ q0 : Fin 20, ∃ t : Fin cfg4.N, win4_2.index t = ![q0.val, 0] :=
  (by decide +kernel : ∀ q0 : Fin 20, ∃ t : Fin grid4.N, win4_2.index t = ![q0.val, 0])

/-- What point t writes back is block t of G of the two input arrays. -/
theorem flushed_eq (c : Dev nD) (t : Fin cfg4.N) :
    (dat4 V c).flushed 2 t = ((cfg4.win 2).blk t).view.read (Elt Ideal)
      (G (a0 V c) (a1 V c)) := by
  show (cfg4.win 2).cut (grid4.coords t) ((dat4 V c).after 2 t) = _
  rw [after4_2]
  unfold out4_2
  rw [View.canon_unit_zero hz]
  simp only [View.ld_unit_zero (S := S5000x128) hz]
  rw [pay]
  obtain ⟨e0, e1, e2, e3, e4, e5⟩ := idx_facts t
  funext j
  show FloatOps.mulf (F := Ideal) (φ := .f32) (FloatOps.addf (F := Ideal) (φ := .f32) (a0 V c (((cfg4.win 0).blk t).view.emb j)) (a1 V c (((cfg4.win 1).blk t).view.emb j))) (FloatOps.ofBits (F := Ideal) .f32 0x3F000000#32)
     = FloatOps.mulf (F := Ideal) (φ := .f32) (FloatOps.addf (F := Ideal) (φ := .f32) (a0 V c (((cfg4.win 2).blk t).view.emb j)) (a1 V c (((cfg4.win 2).blk t).view.emb j))) (FloatOps.ofBits (F := Ideal) .f32 0x3F000000#32)
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 128 + 1 * (j 1).val = win4_2.index t (1 : Fin 2) * 128 + 1 * (j 1).val; omega
  rw [h0, h1]

/-- An index of the array is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v42).slice (win4_2.rect t)).set ↔ _
  rw [View.set_slice_whole, Rect.mem_set_unit]
  exact Iff.rfl

/-- The 20 row blocks cover the array: row r lies in the block of point r / 5000. -/
theorem cover (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array after the region: half the sum of the two input arrays as the region found them. -/
theorem final (c : Dev nD) :
    (dat4 V c).arrAt 2 cfg4.N = G (a0 V c) (a1 V c) :=
  (dat4 V c).arrAt_eq_of_cover 2 _ (fun t _ => flushed_eq V c t) cover

end Cert.KernelIdeal.Region4

end
-- ==== Proof.Fold.lean ====
/-
  The kernel program's buffers, boundary by boundary, from the launch memory to the result.

  The program is: concatenate [W1 | Wloop1] and reshape b1; region 0 (support1, xloop1); the edge aggregation of support1 on the
  host; region 1 (h1 = agg1 + xloop1); concatenate [W2 | Wloop2] and reshape b2; region 2 on h1 (support2, xloop2); the edge
  aggregation of support2; region 3 (h2 = agg2 + xloop2); region 4 (out = (x + h2) · 0.5).
  Each region's output arrays hold the whole-array function of its input arrays as it finds them; each host
  stretch's results are its operations of the buffers it reads; every other buffer is carried along unchanged. Read back
  from the last boundary, the result is  (x + layer₂(layer₁ x)) · 0.5  with each layer in the kernel's grouping
  agg(h · W) + (h · Wloop + b).
-/
import proofs.«115879_j90563680403918_1_alg».proof.Proof.Gen.KernelIdeal.Frame
import Idealize.ShloMosaic.Lib.StableHlo.Run
import Idealize.ShloMosaic.Lib.ValueIdx
import Idealize.ShloMosaic.Lib.Pipeline.Value
import proofs.«115879_j90563680403918_1_alg».proof.Proof.Spec
import proofs.«115879_j90563680403918_1_alg».proof.Proof.Region0
import proofs.«115879_j90563680403918_1_alg».proof.Proof.Region1
import proofs.«115879_j90563680403918_1_alg».proof.Proof.Region2
import proofs.«115879_j90563680403918_1_alg».proof.Proof.Region3
import proofs.«115879_j90563680403918_1_alg».proof.Proof.Region4

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.GraphConv

/-- The edge aggregation of a support array: gather its rows at the edges' sources (a negative index wrapped by the
    row count), scale each by its edge's weight, and add them into the rows named by the edges' destinations. -/
def agg (s : FVec Ideal S100000x128 .f32) (e : IVec S2x1600000 32)
    (w : FVec Ideal S1600000 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (mulf (F := Ideal) (φ := .f32)
      (Host.gather (α := Ideal .f32) gather_S100000x128_S1600000x1_S1600000x128_1_0_n_n_0_1_1128 s
        (broadcastInDim S1600000x1 ![0] bcast_S1600000_S1600000x1_0
          (select
            (cmpi .slt (shapeCast S1600000 (extractStridedSlice S1x1600000 ![0, 0] e slices_S2x1600000_S1x1600000_0_0) shapeCasts_S1x1600000_S1600000)
              (broadcastInDim S1600000 ![] bcast_S_S1600000 (constantI S_ 32 0#32)))
            (addi (shapeCast S1600000 (extractStridedSlice S1x1600000 ![0, 0] e slices_S2x1600000_S1x1600000_0_0) shapeCasts_S1x1600000_S1600000)
              (broadcastInDim S1600000 ![] bcast_S_S1600000 (constantI S_ 32 100000#32)))
            (shapeCast S1600000 (extractStridedSlice S1x1600000 ![0, 0] e slices_S2x1600000_S1x1600000_0_0) shapeCasts_S1x1600000_S1600000))))
      (broadcastInDim S1600000x128 ![0, 1] bcast_S1600000x1_S1600000x128_0_1
        (broadcastInDim S1600000x1 ![0] bcast_S1600000_S1600000x1_0 w)))

/-- One layer in the kernel's grouping:  agg(h · W) + (h · Wloop + b). -/
def layer (h : S100000x128.Idx → EReal) (e : IVec S2x1600000 32) (w : FVec Ideal S1600000 .f32)
    (W Wl : S128x128.Idx → EReal) (b : S128.Idx → EReal) : S100000x128.Idx → EReal :=
  addf (F := Ideal) (φ := .f32) (agg (prod h W) e w) (fun i => prod h Wl i + vecAt b (i 1))

variable (m : (ℓ : Loc nD τ sig) → Buf (Elt Ideal) ℓ) (ρ : Dev nD → PrngReg)

/-- A host stretch leaves a buffer none of its operations writes as it found it; the stretch's results are its operations. -/
macro "host_read" : tactic => `(tactic| (show StableHlo.after _ _ _ = _; after_results_simp))

/-! ## After the first stretch (region 0's entry) -/

theorem w1_v0 (c : Dev nD) : W1 m ρ c (Proc.devRef .tc main_v0)
    = concatenate S128x256 1 [⟨S128x128, m ((c : Thread nD τ).loc main_arg3)⟩, ⟨S128x128, m ((c : Thread nD τ).loc main_arg4)⟩] concatenates_S128x128_S128x128_S128x256_d1 := by
  show StableHlo.after hostOps0 (W0 m ρ c) _ = _
  after_results
theorem w1_v1 (c : Dev nD) : W1 m ρ c (Proc.devRef .tc main_v1) = shapeCast S1x128 (m ((c : Thread nD τ).loc main_arg5)) shapeCasts_S128_S1x128 := by
  show StableHlo.after hostOps0 (W0 m ρ c) _ = _
  after_results
  rfl
theorem w1_arg0 (c : Dev nD) : W1 m ρ c (Proc.devRef .tc main_arg0) = m ((c : Thread nD τ).loc main_arg0) := by
  show StableHlo.after hostOps0 (W0 m ρ c) _ = _
  after_results
theorem w1_arg1 (c : Dev nD) : W1 m ρ c (Proc.devRef .tc main_arg1) = m ((c : Thread nD τ).loc main_arg1) := by
  show StableHlo.after hostOps0 (W0 m ρ c) _ = _
  after_results
theorem w1_arg2 (c : Dev nD) : W1 m ρ c (Proc.devRef .tc main_arg2) = m ((c : Thread nD τ).loc main_arg2) := by
  show StableHlo.after hostOps0 (W0 m ρ c) _ = _
  after_results
theorem w1_arg6 (c : Dev nD) : W1 m ρ c (Proc.devRef .tc main_arg6) = m ((c : Thread nD τ).loc main_arg6) := by
  show StableHlo.after hostOps0 (W0 m ρ c) _ = _
  after_results
theorem w1_arg7 (c : Dev nD) : W1 m ρ c (Proc.devRef .tc main_arg7) = m ((c : Thread nD τ).loc main_arg7) := by
  show StableHlo.after hostOps0 (W0 m ρ c) _ = _
  after_results
theorem w1_arg8 (c : Dev nD) : W1 m ρ c (Proc.devRef .tc main_arg8) = m ((c : Thread nD τ).loc main_arg8) := by
  show StableHlo.after hostOps0 (W0 m ρ c) _ = _
  after_results

/-! ## After region 0 -/

theorem w2_arg1 (c : Dev nD) : W2 m ρ c (Proc.devRef .tc main_arg1) = m ((c : Thread nD τ).loc main_arg1) :=
  (W2_of_ne m ρ c main_arg1 (by decide)).trans (w1_arg1 m ρ c)
theorem w2_arg2 (c : Dev nD) : W2 m ρ c (Proc.devRef .tc main_arg2) = m ((c : Thread nD τ).loc main_arg2) :=
  (W2_of_ne m ρ c main_arg2 (by decide)).trans (w1_arg2 m ρ c)
theorem w2_arg6 (c : Dev nD) : W2 m ρ c (Proc.devRef .tc main_arg6) = m ((c : Thread nD τ).loc main_arg6) :=
  (W2_of_ne m ρ c main_arg6 (by decide)).trans (w1_arg6 m ρ c)
theorem w2_arg7 (c : Dev nD) : W2 m ρ c (Proc.devRef .tc main_arg7) = m ((c : Thread nD τ).loc main_arg7) :=
  (W2_of_ne m ρ c main_arg7 (by decide)).trans (w1_arg7 m ρ c)
theorem w2_arg8 (c : Dev nD) : W2 m ρ c (Proc.devRef .tc main_arg8) = m ((c : Thread nD τ).loc main_arg8) :=
  (W2_of_ne m ρ c main_arg8 (by decide)).trans (w1_arg8 m ρ c)
theorem w2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (w1_arg0 m ρ c)

/-- The support of layer 1:  x · W1. -/
theorem w2_support (c : Dev nD) : W2 m ρ c (Proc.devRef .tc main_v2_0) = prod (m ((c : Thread nD τ).loc main_arg0)) (m ((c : Thread nD τ).loc main_arg3)) := by
  refine ((W2_arr m ρ c 3).trans (Region0.final3 (V1 m ρ) c)).trans ?_
  show prodL (W1 m ρ c (Proc.devRef .tc main_arg0)) (W1 m ρ c (Proc.devRef .tc main_v0)) = _
  rw [w1_arg0, w1_v0]
  exact prodL_concat _ _ _ _

/-- The self-loop term of layer 1:  x · Wloop1 + b1. -/
theorem w2_xloop (c : Dev nD) : W2 m ρ c (Proc.devRef .tc main_v2_1)
    = fun i => prod (m ((c : Thread nD τ).loc main_arg0)) (m ((c : Thread nD τ).loc main_arg4)) i + vecAt (m ((c : Thread nD τ).loc main_arg5)) (i 1) := by
  refine ((W2_arr m ρ c 4).trans (Region0.final4 (V1 m ρ) c)).trans ?_
  show prodRBias (W1 m ρ c (Proc.devRef .tc main_arg0)) (W1 m ρ c (Proc.devRef .tc main_v0)) (W1 m ρ c (Proc.devRef .tc main_v1)) = _
  rw [w1_arg0, w1_v0, w1_v1]
  exact prodRBias_concat _ _ _ _ _ _

/-! ## After the aggregation of layer 1 (region 1's entry) -/

set_option maxHeartbeats 2000000 in
theorem w3_agg (c : Dev nD) : W3 m ρ c (Proc.devRef .tc main_v19)
    = agg (W2 m ρ c (Proc.devRef .tc main_v2_0)) (W2 m ρ c (Proc.devRef .tc main_arg1)) (W2 m ρ c (Proc.devRef .tc main_arg2)) := by
  show StableHlo.after hostOps1 (W2 m ρ c) _ = _
  after_results_simp
  rfl
set_option maxHeartbeats 2000000 in
theorem w3_xloop (c : Dev nD) : W3 m ρ c (Proc.devRef .tc main_v2_1) = W2 m ρ c (Proc.devRef .tc main_v2_1) := by
  show StableHlo.after hostOps1 (W2 m ρ c) _ = _
  after_results_simp
set_option maxHeartbeats 2000000 in
theorem w3_arg0 (c : Dev nD) : W3 m ρ c (Proc.devRef .tc main_arg0) = m ((c : Thread nD τ).loc main_arg0) := by
  refine (show StableHlo.after hostOps1 (W2 m ρ c) _ = W2 m ρ c (Proc.devRef .tc main_arg0) by after_results_simp).trans (w2_arg0 m ρ c)
set_option maxHeartbeats 2000000 in
theorem w3_arg1 (c : Dev nD) : W3 m ρ c (Proc.devRef .tc main_arg1) = m ((c : Thread nD τ).loc main_arg1) := by
  refine (show StableHlo.after hostOps1 (W2 m ρ c) _ = W2 m ρ c (Proc.devRef .tc main_arg1) by after_results_simp).trans (w2_arg1 m ρ c)
set_option maxHeartbeats 2000000 in
theorem w3_arg2 (c : Dev nD) : W3 m ρ c (Proc.devRef .tc main_arg2) = m ((c : Thread nD τ).loc main_arg2) := by
  refine (show StableHlo.after hostOps1 (W2 m ρ c) _ = W2 m ρ c (Proc.devRef .tc main_arg2) by after_results_simp).trans (w2_arg2 m ρ c)
set_option maxHeartbeats 2000000 in
theorem w3_arg6 (c : Dev nD) : W3 m ρ c (Proc.devRef .tc main_arg6) = m ((c : Thread nD τ).loc main_arg6) := by
  refine (show StableHlo.after hostOps1 (W2 m ρ c) _ = W2 m ρ c (Proc.devRef .tc main_arg6) by after_results_simp).trans (w2_arg6 m ρ c)
set_option maxHeartbeats 2000000 in
theorem w3_arg7 (c : Dev nD) : W3 m ρ c (Proc.devRef .tc main_arg7) = m ((c : Thread nD τ).loc main_arg7) := by
  refine (show StableHlo.after hostOps1 (W2 m ρ c) _ = W2 m ρ c (Proc.devRef .tc main_arg7) by after_results_simp).trans (w2_arg7 m ρ c)
set_option maxHeartbeats 2000000 in
theorem w3_arg8 (c : Dev nD) : W3 m ρ c (Proc.devRef .tc main_arg8) = m ((c : Thread nD τ).loc main_arg8) := by
  refine (show StableHlo.after hostOps1 (W2 m ρ c) _ = W2 m ρ c (Proc.devRef .tc main_arg8) by after_results_simp).trans (w2_arg8 m ρ c)

/-! ## After region 1: the first layer's output -/

/-- h1 = agg(x · W1) + (x · Wloop1 + b1). -/
theorem w4_h1 (c : Dev nD) : W4 m ρ c (Proc.devRef .tc main_v20) = (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine ((W4_arr m ρ c 2).trans (Region1.final (V3 m ρ) c)).trans ?_
  show Region1.G (W3 m ρ c (Proc.devRef .tc main_v19)) (W3 m ρ c (Proc.devRef .tc main_v2_1)) = _
  rw [w3_agg, w3_xloop, w2_support, w2_xloop, w2_arg1, w2_arg2]
  rfl
theorem w4_arg0 (c : Dev nD) : W4 m ρ c (Proc.devRef .tc main_arg0) = m ((c : Thread nD τ).loc main_arg0) :=
  (W4_of_ne m ρ c main_arg0 (by decide)).trans (w3_arg0 m ρ c)
theorem w4_arg1 (c : Dev nD) : W4 m ρ c (Proc.devRef .tc main_arg1) = m ((c : Thread nD τ).loc main_arg1) :=
  (W4_of_ne m ρ c main_arg1 (by decide)).trans (w3_arg1 m ρ c)
theorem w4_arg2 (c : Dev nD) : W4 m ρ c (Proc.devRef .tc main_arg2) = m ((c : Thread nD τ).loc main_arg2) :=
  (W4_of_ne m ρ c main_arg2 (by decide)).trans (w3_arg2 m ρ c)
theorem w4_arg6 (c : Dev nD) : W4 m ρ c (Proc.devRef .tc main_arg6) = m ((c : Thread nD τ).loc main_arg6) :=
  (W4_of_ne m ρ c main_arg6 (by decide)).trans (w3_arg6 m ρ c)
theorem w4_arg7 (c : Dev nD) : W4 m ρ c (Proc.devRef .tc main_arg7) = m ((c : Thread nD τ).loc main_arg7) :=
  (W4_of_ne m ρ c main_arg7 (by decide)).trans (w3_arg7 m ρ c)
theorem w4_arg8 (c : Dev nD) : W4 m ρ c (Proc.devRef .tc main_arg8) = m ((c : Thread nD τ).loc main_arg8) :=
  (W4_of_ne m ρ c main_arg8 (by decide)).trans (w3_arg8 m ρ c)

/-! ## After the second concatenation and reshape (region 2's entry) -/

theorem w5_v21 (c : Dev nD) : W5 m ρ c (Proc.devRef .tc main_v21)
    = concatenate S128x256 1 [⟨S128x128, m ((c : Thread nD τ).loc main_arg6)⟩, ⟨S128x128, m ((c : Thread nD τ).loc main_arg7)⟩] concatenates_S128x128_S128x128_S128x256_d1 := by
  refine (show StableHlo.after hostOps2 (W4 m ρ c) _ = concatenate S128x256 1 [⟨S128x128, W4 m ρ c (Proc.devRef .tc main_arg6)⟩, ⟨S128x128, W4 m ρ c (Proc.devRef .tc main_arg7)⟩] concatenates_S128x128_S128x128_S128x256_d1 by after_results).trans ?_
  rw [w4_arg6, w4_arg7]
theorem w5_v22 (c : Dev nD) : W5 m ρ c (Proc.devRef .tc main_v22) = shapeCast S1x128 (m ((c : Thread nD τ).loc main_arg8)) shapeCasts_S128_S1x128 := by
  refine (show StableHlo.after hostOps2 (W4 m ρ c) _ = shapeCast S1x128 (W4 m ρ c (Proc.devRef .tc main_arg8)) shapeCasts_S128_S1x128 by after_results; rfl).trans ?_
  rw [w4_arg8]
theorem w5_h1 (c : Dev nD) : W5 m ρ c (Proc.devRef .tc main_v20) = (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (show StableHlo.after hostOps2 (W4 m ρ c) _ = W4 m ρ c (Proc.devRef .tc main_v20) by after_results).trans (w4_h1 m ρ c)
theorem w5_arg0 (c : Dev nD) : W5 m ρ c (Proc.devRef .tc main_arg0) = m ((c : Thread nD τ).loc main_arg0) :=
  (show StableHlo.after hostOps2 (W4 m ρ c) _ = W4 m ρ c (Proc.devRef .tc main_arg0) by after_results).trans (w4_arg0 m ρ c)
theorem w5_arg1 (c : Dev nD) : W5 m ρ c (Proc.devRef .tc main_arg1) = m ((c : Thread nD τ).loc main_arg1) :=
  (show StableHlo.after hostOps2 (W4 m ρ c) _ = W4 m ρ c (Proc.devRef .tc main_arg1) by after_results).trans (w4_arg1 m ρ c)
theorem w5_arg2 (c : Dev nD) : W5 m ρ c (Proc.devRef .tc main_arg2) = m ((c : Thread nD τ).loc main_arg2) :=
  (show StableHlo.after hostOps2 (W4 m ρ c) _ = W4 m ρ c (Proc.devRef .tc main_arg2) by after_results).trans (w4_arg2 m ρ c)

/-! ## After region 2 -/

theorem w6_arg0 (c : Dev nD) : W6 m ρ c (Proc.devRef .tc main_arg0) = m ((c : Thread nD τ).loc main_arg0) :=
  (W6_of_ne m ρ c main_arg0 (by decide)).trans (w5_arg0 m ρ c)
theorem w6_arg1 (c : Dev nD) : W6 m ρ c (Proc.devRef .tc main_arg1) = m ((c : Thread nD τ).loc main_arg1) :=
  (W6_of_ne m ρ c main_arg1 (by decide)).trans (w5_arg1 m ρ c)
theorem w6_arg2 (c : Dev nD) : W6 m ρ c (Proc.devRef .tc main_arg2) = m ((c : Thread nD τ).loc main_arg2) :=
  (W6_of_ne m ρ c main_arg2 (by decide)).trans (w5_arg2 m ρ c)

/-- The support of layer 2:  h1 · W2. -/
theorem w6_support (c : Dev nD) : W6 m ρ c (Proc.devRef .tc main_v23_0) = prod (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by
  refine ((W6_arr m ρ c 3).trans (Region2.final3 (V5 m ρ) c)).trans ?_
  show prodL (W5 m ρ c (Proc.devRef .tc main_v20)) (W5 m ρ c (Proc.devRef .tc main_v21)) = _
  rw [w5_h1, w5_v21]
  exact prodL_concat _ _ _ _

/-- The self-loop term of layer 2:  h1 · Wloop2 + b2. -/
theorem w6_xloop (c : Dev nD) : W6 m ρ c (Proc.devRef .tc main_v23_1)
    = fun i => prod (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg7)) i + vecAt (m ((c : Thread nD τ).loc main_arg8)) (i 1) := by
  refine ((W6_arr m ρ c 4).trans (Region2.final4 (V5 m ρ) c)).trans ?_
  show prodRBias (W5 m ρ c (Proc.devRef .tc main_v20)) (W5 m ρ c (Proc.devRef .tc main_v21)) (W5 m ρ c (Proc.devRef .tc main_v22)) = _
  rw [w5_h1, w5_v21, w5_v22]
  exact prodRBias_concat _ _ _ _ _ _

/-! ## After the aggregation of layer 2 (region 3's entry) -/

set_option maxHeartbeats 2000000 in
theorem w7_agg (c : Dev nD) : W7 m ρ c (Proc.devRef .tc main_v40)
    = agg (W6 m ρ c (Proc.devRef .tc main_v23_0)) (W6 m ρ c (Proc.devRef .tc main_arg1)) (W6 m ρ c (Proc.devRef .tc main_arg2)) := by
  show StableHlo.after hostOps3 (W6 m ρ c) _ = _
  after_results_simp
  rfl
set_option maxHeartbeats 2000000 in
theorem w7_xloop (c : Dev nD) : W7 m ρ c (Proc.devRef .tc main_v23_1) = W6 m ρ c (Proc.devRef .tc main_v23_1) := by
  show StableHlo.after hostOps3 (W6 m ρ c) _ = _
  after_results_simp
set_option maxHeartbeats 2000000 in
theorem w7_arg0 (c : Dev nD) : W7 m ρ c (Proc.devRef .tc main_arg0) = m ((c : Thread nD τ).loc main_arg0) := by
  refine (show StableHlo.after hostOps3 (W6 m ρ c) _ = W6 m ρ c (Proc.devRef .tc main_arg0) by after_results_simp).trans (w6_arg0 m ρ c)

/-! ## After region 3: the second layer's output; after region 4: the result -/

/-- h2 = agg(h1 · W2) + (h1 · Wloop2 + b2). -/
theorem w8_h2 (c : Dev nD) : W8 m ρ c (Proc.devRef .tc main_v41) = (layer (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) := by
  refine ((W8_arr m ρ c 2).trans (Region3.final (V7 m ρ) c)).trans ?_
  show Region3.G (W7 m ρ c (Proc.devRef .tc main_v40)) (W7 m ρ c (Proc.devRef .tc main_v23_1)) = _
  rw [w7_agg, w7_xloop, w6_support, w6_xloop, w6_arg1, w6_arg2]
  rfl
theorem w8_arg0 (c : Dev nD) : W8 m ρ c (Proc.devRef .tc main_arg0) = m ((c : Thread nD τ).loc main_arg0) :=
  (W8_of_ne m ρ c main_arg0 (by decide)).trans (w7_arg0 m ρ c)

/-- THE RESULT:  (x + h2) · 0.5. -/
theorem w9_out (c : Dev nD) : W9 m ρ c (Proc.devRef .tc main_v42) = Region4.G (m ((c : Thread nD τ).loc main_arg0)) (layer (layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg6)) (m ((c : Thread nD τ).loc main_arg7)) (m ((c : Thread nD τ).loc main_arg8))) := by
  refine ((W9_arr m ρ c 2).trans (Region4.final (V8 m ρ) c)).trans ?_
  show Region4.G (W8 m ρ c (Proc.devRef .tc main_arg0)) (W8 m ρ c (Proc.devRef .tc main_v41)) = _
  rw [w8_arg0, w8_h2]

end Cert.KernelIdeal.Fold

end
-- ==== Proof.RefValue.lean ====
/-
  The reference's result, read as mathematics.

  The reference applies one layer twice,  h ↦ (agg(h · W) + h · Wloop) + b,  and returns  (x + layer₂(layer₁ x)) · 0.5.
  Its host product is the sum  ∑ k, h[r, k] · W[k, q]  at the extended reals, and its bias, broadcast [128] → [1, 128] →
  [100000, 128], is entry q in every row. The edge aggregation (gather, scale, scatter-add) is kept as ONE function of the
  support array and the edge arrays and is never opened: the kernel applies the same operations to the same edge arrays.
-/
import proofs.«115879_j90563680403918_1_alg».proof.Defs
import proofs.«115879_j90563680403918_1_alg».proof.Proof.Gen.ReferenceIdeal.Run
import proofs.«115879_j90563680403918_1_alg».proof.Proof.Gen.ReferenceIdeal.Read
import proofs.«115879_j90563680403918_1_alg».proof.Proof.Spec

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.GraphConv

/-- The edge aggregation of a support array: gather its rows at the edges' sources (a negative index wrapped by the
    row count), scale each by its edge's weight, and add them into the rows named by the edges' destinations. -/
def agg (s : FVec Ideal S100000x128 .f32) (e : IVec S2x1600000 32)
    (w : FVec Ideal S1600000 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (mulf
      (Host.gather gather_S100000x128_S1600000x1_S1600000x128_1_0_n_n_0_1_1128 s
        (broadcastInDim S1600000x1 ![0] bcast_S1600000_S1600000x1_0
          (select
            (cmpi .slt (shapeCast S1600000 (extractStridedSlice S1x1600000 ![0, 0] e slices_S2x1600000_S1x1600000_0_0) shapeCasts_S1x1600000_S1600000)
              (broadcastInDim S1600000 ![] bcast_S_S1600000 (constantI S_ 32 0#32)))
            (addi (shapeCast S1600000 (extractStridedSlice S1x1600000 ![0, 0] e slices_S2x1600000_S1x1600000_0_0) shapeCasts_S1x1600000_S1600000)
              (broadcastInDim S1600000 ![] bcast_S_S1600000 (constantI S_ 32 100000#32)))
            (shapeCast S1600000 (extractStridedSlice S1x1600000 ![0, 0] e slices_S2x1600000_S1x1600000_0_0) shapeCasts_S1x1600000_S1600000))))
      (broadcastInDim S1600000x128 ![0, 1] bcast_S1600000x1_S1600000x128_0_1
        (broadcastInDim S1600000x1 ![0] bcast_S1600000_S1600000x1_0 w)))

/-- One layer as the reference computes it:  (agg(h · W) + h · Wloop) + b. -/
def layer (h : FVec Ideal S100000x128 .f32) (e : IVec S2x1600000 32)
    (w : FVec Ideal S1600000 .f32) (W Wl : FVec Ideal S128x128 .f32)
    (b : FVec Ideal S128 .f32) : FVec Ideal S100000x128 .f32 :=
  addf (F := Ideal) (φ := .f32) (addf (F := Ideal) (φ := .f32) (agg (Host.dotGeneral (F := Ideal) dot_S100000x128_S128x128_S100000x128_1_0_0_1_n_n none h W) e w) (Host.dotGeneral (F := Ideal) dot_S100000x128_S128x128_S100000x128_1_0_0_1_n_n none h Wl))
    (broadcastInDim S100000x128 ![0, 1] bcast_S1x128_S100000x128_0_1 (broadcastInDim S1x128 ![1] bcast_S128_S1x128_1 b))

variable (m : (ℓ : Loc nD τ sig) → Buf (Elt Ideal) ℓ)

set_option maxRecDepth 8192 in
/-- The run's result term is the two layers and the final half-sum. -/
theorem res_eq (c : Dev nD) : (Cert.ReferenceIdeal.Value.res_main_v48 (F := Ideal) m c : FVec Ideal S100000x128 .f32)
    = mulf (F := Ideal) (φ := .f32) (addf (F := Ideal) (φ := .f32) (m ((c.tc : Thread nD τ).loc main_arg0))
        (layer (layer (m ((c.tc : Thread nD τ).loc main_arg0)) (m ((c.tc : Thread nD τ).loc main_arg1)) (m ((c.tc : Thread nD τ).loc main_arg2))
                 (m ((c.tc : Thread nD τ).loc main_arg3)) (m ((c.tc : Thread nD τ).loc main_arg4)) (m ((c.tc : Thread nD τ).loc main_arg5)))
          (m ((c.tc : Thread nD τ).loc main_arg1)) (m ((c.tc : Thread nD τ).loc main_arg2))
          (m ((c.tc : Thread nD τ).loc main_arg6)) (m ((c.tc : Thread nD τ).loc main_arg7)) (m ((c.tc : Thread nD τ).loc main_arg8))))
      (broadcastInDim S100000x128 ![] bcast_S_S100000x128 (constant S_ .f32 0x3F000000#32)) := by
  unfold Cert.ReferenceIdeal.Value.res_main_v48 layer agg
  rfl

/-- The host's product of node features with a weight matrix is the sum over the contracted axis. -/
theorem dot_eq (x : FVec Ideal S100000x128 .f32) (w : FVec Ideal S128x128 .f32) :
    Host.dotGeneral (F := Ideal) dot_S100000x128_S128x128_S100000x128_1_0_0_1_n_n none x w = prod x w := by
  funext i
  show _ = prodAt x w (i 0) (i 1)
  unfold prodAt
  refine (Cert.ReferenceIdeal.Read.val_main_v0_apply x w i).trans (Finset.sum_congr rfl fun k _ => ?_)
  have el : Cert.ReferenceIdeal.Read.lidx_main_v0 i k = ix2 (n0 := 100000) (n1 := 128) (i 0) k :=
    funext fun a => by match a with | ⟨0, _⟩ => rfl | ⟨1, _⟩ => rfl
  have er : Cert.ReferenceIdeal.Read.ridx_main_v0 i k = ix2 (n0 := 128) (n1 := 128) k (i 1) :=
    funext fun a => by match a with | ⟨0, _⟩ => rfl | ⟨1, _⟩ => rfl
  exact congrArg₂ (· * ·) (congrArg x el) (congrArg w er)

/-- The reference's bias, broadcast down the rows, is entry q of the bias in every row. -/
theorem bias_eq (b : FVec Ideal S128 .f32) :
    broadcastInDim S100000x128 ![0, 1] bcast_S1x128_S100000x128_0_1 (broadcastInDim S1x128 ![1] bcast_S128_S1x128_1 b)
      = fun i => vecAt b (i 1) := by
  funext i
  obtain ⟨r, q, rfl⟩ : ∃ (r : Fin 100000) (q : Fin 128), i = ix2 r q := ⟨i 0, i 1, eq_ix2 i⟩
  exact bias_bcast b _ _ r q

/-- One layer of the reference, entry by entry. -/
theorem layer_eq (h : FVec Ideal S100000x128 .f32) (e : IVec S2x1600000 32)
    (w : FVec Ideal S1600000 .f32) (W Wl : FVec Ideal S128x128 .f32)
    (b : FVec Ideal S128 .f32) :
    layer h e w W Wl b = fun i => (agg (prod h W) e w i + prod h Wl i) + vecAt b (i 1) := by
  unfold layer
  rw [dot_eq, dot_eq, bias_eq]
  funext i
  rw [addf_apply, addf_apply]

end Cert.ReferenceIdeal.RefValue

end
-- ==== Proof.Bridge.lean ====
/-
  The two programs compute one function.

  Kernel:     (x + L₂(L₁ x)) · 0.5   with  L h = agg(h · W) + (h · Wloop + b)
  Reference:  (x + L₂'(L₁' x)) · 0.5  with  L' h = (agg(h · W) + h · Wloop) + b
  The edge aggregation agg is the same chain of host operations on both sides; the products and the bias are the same sums
  and entries; the two groupings of the three summands agree by associativity of + on the extended reals.
-/
import proofs.«115879_j90563680403918_1_alg».proof.Proof.Fold
import proofs.«115879_j90563680403918_1_alg».proof.Proof.RefValue

noncomputable section

namespace Cert.Bridge

open Idealize.ShloMosaic Idealize.ShloMosaic.ValueIdx Cert.GraphConv

/-- The kernel program's edge aggregation is the reference's: the same operations, with the same dimension records. -/
theorem agg_eq (s : FVec Ideal Cert.KernelIdeal.S100000x128 .f32) (e : IVec Cert.KernelIdeal.S2x1600000 32) (w : FVec Ideal Cert.KernelIdeal.S1600000 .f32) :
    Cert.KernelIdeal.Fold.agg s e w = Cert.ReferenceIdeal.RefValue.agg s e w := rfl

/-- One layer: the kernel's grouping is the reference's. -/
theorem layer_eq (h : FVec Ideal Cert.KernelIdeal.S100000x128 .f32) (e : IVec Cert.KernelIdeal.S2x1600000 32) (w : FVec Ideal Cert.KernelIdeal.S1600000 .f32)
    (W Wl : FVec Ideal Cert.KernelIdeal.S128x128 .f32) (b : FVec Ideal Cert.KernelIdeal.S128 .f32) :
    Cert.KernelIdeal.Fold.layer h e w W Wl b = Cert.ReferenceIdeal.RefValue.layer h e w W Wl b := by
  rw [Cert.ReferenceIdeal.RefValue.layer_eq]
  unfold Cert.KernelIdeal.Fold.layer
  rw [agg_eq]
  funext i
  rw [addf_apply]
  exact (add_assoc _ _ _).symm

/-- The final scale: the kernel's splat of 0.5 is the reference's broadcast of the constant 0.5. -/
theorem half_eq (x h : FVec Ideal Cert.KernelIdeal.S100000x128 .f32) :
    Cert.KernelIdeal.Region4.G x h
      = mulf (F := Ideal) (φ := .f32) (addf (F := Ideal) (φ := .f32) x h)
          (broadcastInDim Cert.ReferenceIdeal.S100000x128 ![] Cert.ReferenceIdeal.Facts₀.bcast_S_S100000x128 (constant (F := Ideal) Cert.ReferenceIdeal.S_ .f32 0x3F000000#32)) := by
  unfold Cert.KernelIdeal.Region4.G
  funext i
  rfl

end Cert.Bridge

end
-- ==== Proof.lean ====
/-
  A two-layer graph-convolution residual block over 100000 nodes with 128 features and 1600000 weighted edges:
      out = (x + L₂(L₁ x)) · 0.5,     L h = agg(h · W) + h · Wloop + b,
  where agg gathers rows of the support h · W at the edges' sources, scales them by the edge weights and adds them into
  the edges' destination rows.

  The kernel program runs five row-blocked regions (20 blocks of 5000 rows) with the edge aggregation on the host between
  them: a dense region that multiplies a row block ONCE by [W | Wloop] and splits the product into the support and the
  self-loop term plus bias; an add region; the same pair again for the second layer; and a final (x + h) · 0.5 region.
  The reference does everything on the host with two separate products per layer.

  At the extended reals the two programs are one function: the left and right halves of the product with [W | Wloop] are
  the products with W and with Wloop term by term; the change of float format before the kernel's product is the identity;
  the edge aggregation is the same chain of host operations applied to equal supports, so it is carried as one unopened
  function; and the kernel's  agg + (h · Wloop + b)  is the reference's  (agg + h · Wloop) + b  by associativity of +, which
  holds on the extended reals without any finiteness, so the precondition is never opened.

  The three frames are the generated ones (the reference's is its generated run with the result dropped); the kernel's run
  with its result named is the frame's own launch with the result array added to the post, and each region's output
  array is read off that run as a whole-array function of the region's input arrays, the 20 blocks tiling the array.
  Nothing was rewritten by the idealization, so the preservation claim is trivial.
-/
import proofs.«115879_j90563680403918_1_alg».proof.Defs
import proofs.«115879_j90563680403918_1_alg».proof.Proof.Gen.Kernel
import proofs.«115879_j90563680403918_1_alg».proof.Proof.Gen.Kernel.Skeleton
import proofs.«115879_j90563680403918_1_alg».proof.Proof.Gen.Kernel.Launch
import proofs.«115879_j90563680403918_1_alg».proof.Proof.Gen.Kernel.Points
import proofs.«115879_j90563680403918_1_alg».proof.Proof.Gen.Kernel.Frame
import proofs.«115879_j90563680403918_1_alg».proof.Proof.Gen.KernelIdeal
import proofs.«115879_j90563680403918_1_alg».proof.Proof.Gen.KernelIdeal.Skeleton
import proofs.«115879_j90563680403918_1_alg».proof.Proof.Gen.KernelIdeal.Launch
import proofs.«115879_j90563680403918_1_alg».proof.Proof.Gen.KernelIdeal.Points
import proofs.«115879_j90563680403918_1_alg».proof.Proof.Gen.KernelIdeal.Frame
import proofs.«115879_j90563680403918_1_alg».proof.Proof.Gen.ReferenceIdeal
import proofs.«115879_j90563680403918_1_alg».proof.Proof.Gen.Pre_finite_inputs
import Idealize.ShloMosaic.Adequacy
import Idealize.ShloMosaic.Init
import proofs.«115879_j90563680403918_1_alg».proof.Proof.KernelRun
import proofs.«115879_j90563680403918_1_alg».proof.Proof.Bridge

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments the two runs end with the same result array: the kernel's last boundary
    contents at the result, read back to  (x + L₂(L₁ x)) · 0.5,  is the reference's term with each layer regrouped. -/
theorem algebraic : Cert.algebraic_KernelIdeal_ReferenceIdeal := by
  intro m ρ m' ρ' _ hagree
  refine ⟨fun c => Cert.KernelIdeal.Gen.W9 m ρ c (Proc.devRef .tc Cert.KernelIdeal.main_v42),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  show Cert.ReferenceIdeal.Value.res_main_v48 m' c = Cert.KernelIdeal.Gen.W9 m ρ c (Proc.devRef .tc Cert.KernelIdeal.main_v42)
  rw [Cert.ReferenceIdeal.RefValue.res_eq, h0, h1, h2, h3, h4, h5, h6, h7, h8, Cert.KernelIdeal.Fold.w9_out,
    Cert.Bridge.half_eq, Cert.Bridge.layer_eq, Cert.Bridge.layer_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
